-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S4x256x256 : Shape := ⟨3, ![4, 256, 256]⟩
abbrev S4x256 : Shape := ⟨2, ![4, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg4 : FVec F S4x256 .f32) (main_arg5 : FVec F S4x256x256 .f32) (main_arg6 : FVec F S4x256 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256x256 .f32 := Host.absf main_arg5
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  main_v33

def fn {F : FTy → Type} [FloatOps F] (main_arg0 : FVec F S131072x256 .f32) (main_arg1 : FVec F S131072x256 .f32) (main_arg2 : FVec F S131072x256 .f32) (main_arg3 : FVec F S4x256x256 .f32) (main_arg4 : FVec F S4x256 .f32) (main_arg5 : FVec F S4x256x256 .f32) (main_arg6 : FVec F S4x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x256 .f32 := Host.absf main_arg2
  let main_cst_2 : FVec F S_ .f32 := constant S_ .f32 0x7F800000#32
  let main_v10 : FVec F S131072x256 .f32 := broadcastInDim S131072x256 ![] bcast_S_S131072x256 main_cst_2
  let main_v11 : IVec S131072x256 1 := cmpf .olt main_v9 main_v10
  let main_c_3 : IVec S_ 1 := constantI S_ 1 1#1
  let main_v12 : IVec S_ 1 := (fun x v => Host.reduce IntOp.andi x v reducesTo_S131072x256_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_v13 main_v16
-- ==== Kernel.lean ====
abbrev S131072x256 : Shape := ⟨2, ![131072, 256]⟩
abbrev S4x256x256 : Shape := ⟨3, ![4, 256, 256]⟩
abbrev S4x256 : Shape := ⟨2, ![4, 256]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 14
  | .vmem => 13
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S4x256x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S4x256x256, .f32⟩
  | .hbm, ⟨8, _⟩ => ⟨S4x256x256, .bf16⟩
  | .hbm, ⟨9, _⟩ => ⟨S4x256x256, .f32⟩
  | .hbm, ⟨10, _⟩ => ⟨S4x256x256, .bf16⟩
  | .hbm, ⟨11, _⟩ => ⟨S4x256, .f32⟩
  | .hbm, ⟨12, _⟩ => ⟨S131072x256, .f32⟩
  | .hbm, ⟨13, _⟩ => ⟨S131072x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S4x256x256, .bf16⟩
  | .local _ .vmem, ⟨7, _⟩ => ⟨S4x256x256, .bf16⟩
  | .local _ .vmem, ⟨8, _⟩ => ⟨S4x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x256x256_S4x256x256_0_2_1 : S4x256x256.Transposes [0, 2, 1] S4x256x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S1024x256 : S1x256.Broadcasts S1024x256
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S131072x256.size a
  hwx0_1 : ∀ i : grid0.Coords, EltTy.bits .f32 = 32 ∨ (Rect.block (s := S131072x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S131072x256.size a
  hwx0_2 : ∀ i : grid0.Coords, EltTy.bits .f32 = 32 ∨ (Rect.block (s := S131072x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256x256.size a ≤ S4x256x256.size a
  hwx0_3 : ∀ i : grid0.Coords, EltTy.bits .bf16 = 32 ∨ (Rect.block (s := S4x256x256) S4x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S4x256x256.size a
  hwx0_4 : ∀ i : grid0.Coords, EltTy.bits .bf16 = 32 ∨ (Rect.block (s := S4x256x256) S4x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S131072x256.size a
  hwx0_6 : ∀ i : grid0.Coords, EltTy.bits .f32 = 32 ∨ (Rect.block (s := S131072x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S131072x256.size a
  hwx0_7 : ∀ i : grid0.Coords, EltTy.bits .f32 = 32 ∨ (Rect.block (s := S131072x256) S1024x256.size (cc0_transform_7 i) (hinb0_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x256 : Shape := ⟨2, ![131072, 256]⟩
abbrev S4x256x256 : Shape := ⟨3, ![4, 256, 256]⟩
abbrev S4x256 : Shape := ⟨2, ![4, 256]⟩
abbrev S4x256x131072 : Shape := ⟨3, ![4, 256, 131072]⟩
abbrev S4x131072x256 : Shape := ⟨3, ![4, 131072, 256]⟩
abbrev S4x1x256 : Shape := ⟨3, ![4, 1, 256]⟩
abbrev S_ : Shape := ⟨0, ![]⟩
abbrev S1x131072x256 : Shape := ⟨3, ![1, 131072, 256]⟩

abbrev nBuf : Space → Nat
  | .hbm => 39
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S4x256x256, .f32⟩
  | .hbm, ⟨4, _⟩ => ⟨S4x256, .f32⟩
  | .hbm, ⟨5, _⟩ => ⟨S4x256x256, .f32⟩
  | .hbm, ⟨6, _⟩ => ⟨S4x256, .f32⟩
  | .hbm, ⟨7, _⟩ => ⟨S4x256x131072, .f32⟩
  | .hbm, ⟨8, _⟩ => ⟨S4x131072x256, .f32⟩
  | .hbm, ⟨9, _⟩ => ⟨S4x1x256, .f32⟩
  | .hbm, ⟨10, _⟩ => ⟨S4x131072x256, .f32⟩
  | .hbm, ⟨11, _⟩ => ⟨S4x131072x256, .f32⟩
  | .hbm, ⟨12, _⟩ => ⟨S4x256x131072, .f32⟩
  | .hbm, ⟨13, _⟩ => ⟨S4x131072x256, .f32⟩
  | .hbm, ⟨14, _⟩ => ⟨S4x1x256, .f32⟩
  | .hbm, ⟨15, _⟩ => ⟨S4x131072x256, .f32⟩
  | .hbm, ⟨16, _⟩ => ⟨S4x131072x256, .f32⟩
  | .hbm, ⟨17, _⟩ => ⟨S4x131072x256, .f32⟩
  | .hbm, ⟨18, _⟩ => ⟨S4x131072x256, .f32⟩
  | .hbm, ⟨19, _⟩ => ⟨S4x131072x256, .f32⟩
  | .hbm, ⟨20, _⟩ => ⟨S_, .f32⟩
  | .hbm, ⟨21, _⟩ => ⟨S4x131072x256, .f32⟩
  | .hbm, ⟨22, _⟩ => ⟨S4x131072x256, .f32⟩
  | .hbm, ⟨23, _⟩ => ⟨S_, .f32⟩
  | .hbm, ⟨24, _⟩ => ⟨S4x131072x256, .f32⟩
  | .hbm, ⟨25, _⟩ => ⟨S4x131072x256, .f32⟩
  | .hbm, ⟨26, _⟩ => ⟨S1x131072x256, .f32⟩
  | .hbm, ⟨27, _⟩ => ⟨S131072x256, .f32⟩
  | .hbm, ⟨28, _⟩ => ⟨S1x131072x256, .f32⟩
  | .hbm, ⟨29, _⟩ => ⟨S131072x256, .f32⟩
  | .hbm, ⟨30, _⟩ => ⟨S1x131072x256, .f32⟩
  | .hbm, ⟨31, _⟩ => ⟨S131072x256, .f32⟩
  | .hbm, ⟨32, _⟩ => ⟨S1x131072x256, .f32⟩
  | .hbm, ⟨33, _⟩ => ⟨S131072x256, .f32⟩
  | .hbm, ⟨34, _⟩ => ⟨S131072x256, .f32⟩
  | .hbm, ⟨35, _⟩ => ⟨S131072x256, .f32⟩
  | .hbm, ⟨36, _⟩ => ⟨S131072x256, .f32⟩
  | .hbm, ⟨37, _⟩ => ⟨S131072x256, .f32⟩
  | .hbm, ⟨38, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  transposes_S4x256x131072_S4x131072x256_0_2_1 : S4x256x131072.Transposes [0, 2, 1] S4x131072x256
  bcast_S4x256_S4x1x256_0_2 : S4x256.BroadcastsInDim S4x1x256 (![0, 2] : Fin 2 → Fin S4x1x256.rank)
  bcast_S4x1x256_S4x131072x256_0_1_2 : S4x1x256.BroadcastsInDim S4x131072x256 (![0, 1, 2] : Fin 3 → Fin S4x131072x256.rank)
  bcast_S_S4x131072x256 : S_.BroadcastsInDim S4x131072x256 (![] : Fin 0 → Fin S4x131072x256.rank)
  slices_S4x131072x256_S1x131072x256_0_0_0 : S4x131072x256.Slices ![0, 0, 0] S1x131072x256
  shapeCasts_S1x131072x256_S131072x256 : S1x131072x256.ShapeCasts S131072x256
  slices_S4x131072x256_S1x131072x256_1_0_0 : S4x131072x256.Slices ![1, 0, 0] S1x131072x256
  slices_S4x131072x256_S1x131072x256_2_0_0 : S4x131072x256.Slices ![2, 0, 0] S1x131072x256
  slices_S4x131072x256_S1x131072x256_3_0_0 : S4x131072x256.Slices ![3, 0, 0] S1x131072x256
  dot_S4x256x256_S131072x256_S4x256x131072_2_1_01_0_n_n_wf : DotDims.WF S4x256x256 S131072x256 S4x256x131072 [2] [1] [0, 1] [0] [] []

variable [Facts₀]

def dot_S4x256x256_S131072x256_S4x256x131072_2_1_01_0_n_n : DotDims S4x256x256 S131072x256 S4x256x131072 where
  lhsContracting := [2]
  rhsContracting := [1]
  lhsNonContracting := [0, 1]
  rhsNonContracting := [0]
  lhsBatch := []
  rhsBatch := []
  wf := dot_S4x256x256_S131072x256_S4x256x131072_2_1_01_0_n_n_wf

class Facts : Prop extends Facts₀ where

variable [Facts]
-- ==== Proof.Cell.lean ====
/-
  An LSTM cell whose four gates are all logistic, as ONE function of its seven arrays, entry by entry, on the
  extended reals.

  For batch row `b` and hidden column `h`, gate `k` (0: input, 1: forget, 2: output, 3: candidate) has the
  pre-activation
      ∑_d x[b,d]·wx[k,h,d]  +  ∑_j ht[b,j]·wh[k,h,j]  +  (bx[k,h] + bh[k,h]),
  the gate is its logistic, the new cell state is  f·ct[b,h] + i·g  and the new hidden state is  o·tanh(cell).

  Two spellings of this function meet here. One adds the two products first and one pre-summed bias after
  (`pre`); the other adds each bias to its own product and the two halves last (`pre_regrouped`). On the
  extended reals addition is still commutative and associative (the sum of `⊥` and `⊤` is `⊥` whichever way
  it is bracketed), and so is multiplication, so the two agree with no finiteness assumed. A tile of 1024
  consecutive rows computes the same function from the rows it holds and from the weights laid out transposed
  (`tile*`, `tileCell_eq`, `tileHid_eq`).
-/
import Idealize.ShloMosaic.PureOps.Ideal
import Idealize.ShloMosaic.PureOps.Ideal.Laws
import Idealize.ShloMosaic.Lib.ValueIdx
import Idealize.ShloMosaic.Lib.IdealHost

noncomputable section

namespace Cert.Lstm

open Idealize.ShloMosaic Idealize.ShloMosaic.ValueIdx
open scoped BigOperators

/-- The batch-by-hidden arrays (`x`, `ht`, `ct`, and both results). -/
abbrev Rows : Shape := ⟨2, ![131072, 256]⟩
/-- The stacked gate weights, gate × output column × input column. -/
abbrev Wts : Shape := ⟨3, ![4, 256, 256]⟩
/-- The stacked gate biases, gate × column. -/
abbrev Bias : Shape := ⟨2, ![4, 256]⟩
/-- A tile of 1024 batch rows. -/
abbrev Tile : Shape := ⟨2, ![1024, 256]⟩

section whole

variable (x ht ct : Rows.Idx → EReal) (wx wh : Wts.Idx → EReal) (bx bh : Bias.Idx → EReal)

/-- Gate `k`'s pre-activation at row `b`, column `h`: both products, then both biases. -/
def pre (k : Fin 4) (b : Fin 131072) (h : Fin 256) : EReal :=
  ((∑ d : Fin 256, x (ix2 b d) * wx (ix3 k h d)) + ∑ j : Fin 256, ht (ix2 b j) * wh (ix3 k h j))
    + (bx (ix2 k h) + bh (ix2 k h))

/-- Gate `k` there: the logistic of its pre-activation. -/
def gate (k : Fin 4) (b : Fin 131072) (h : Fin 256) : EReal :=
  Ideal.logistic (pre x ht wx wh bx bh k b h)

/-- The new cell state: forget gate times the old state, plus input gate times candidate gate. -/
def cellAt (b : Fin 131072) (h : Fin 256) : EReal :=
  gate x ht wx wh bx bh 1 b h * ct (ix2 b h) + gate x ht wx wh bx bh 0 b h * gate x ht wx wh bx bh 3 b h

/-- The new hidden state: output gate times the hyperbolic tangent of the new cell state. -/
def hidAt (b : Fin 131072) (h : Fin 256) : EReal :=
  gate x ht wx wh bx bh 2 b h * Ideal.tanh (cellAt x ht ct wx wh bx bh b h)

/-- The new cell state as an array. -/
def cellArr : Rows.Idx → EReal := fun i => cellAt x ht ct wx wh bx bh (i 0) (i 1)

/-- The new hidden state as an array. -/
def hidArr : Rows.Idx → EReal := fun i => hidAt x ht ct wx wh bx bh (i 0) (i 1)

/-- The other bracketing, with the factors of each product in the other order: each product with its own
    bias, then the two halves. Addition and multiplication of extended reals are commutative and associative. -/
theorem pre_regrouped (k : Fin 4) (b : Fin 131072) (h : Fin 256) :
    ((∑ d : Fin 256, wx (ix3 k h d) * x (ix2 b d)) + bx (ix2 k h))
      + ((∑ j : Fin 256, wh (ix3 k h j) * ht (ix2 b j)) + bh (ix2 k h))
    = pre x ht wx wh bx bh k b h := by
  unfold pre
  rw [add_add_add_comm]
  congr 2 <;> exact Finset.sum_congr rfl fun _ _ => mul_comm _ _

end whole

/-- The logistic function spelt out as a quotient, with the constant one given by its single-precision pattern. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

section tile

variable (xb hb cb : Tile.Idx → EReal) (wxT whT : Wts.Idx → EReal) (bias : Bias.Idx → EReal)

/-- Gate `k`'s pre-activation at row `p` of a tile, column `q`, from the tile's rows, the weights laid out
    gate × input column × output column, and the two biases already added. -/
def tilePre (k : Fin 4) (p : Fin 1024) (q : Fin 256) : EReal :=
  ((∑ d : Fin 256, xb (ix2 p d) * wxT (ix3 k d q)) + ∑ j : Fin 256, hb (ix2 p j) * whT (ix3 k j q))
    + bias (ix2 k q)

/-- Gate `k` on the tile. -/
def tileGate (k : Fin 4) (p : Fin 1024) (q : Fin 256) : EReal :=
  Ideal.logistic (tilePre xb hb wxT whT bias k p q)

/-- The new cell state on the tile. -/
def tileCell (p : Fin 1024) (q : Fin 256) : EReal :=
  tileGate xb hb wxT whT bias 1 p q * cb (ix2 p q) + tileGate xb hb wxT whT bias 0 p q * tileGate xb hb wxT whT bias 3 p q

/-- The new hidden state on the tile. -/
def tileHid (p : Fin 1024) (q : Fin 256) : EReal :=
  tileGate xb hb wxT whT bias 2 p q * Ideal.tanh (tileCell xb hb cb wxT whT bias p q)

variable (x ht ct : Rows.Idx → EReal) (wx wh : Wts.Idx → EReal) (bx bh : Bias.Idx → EReal)
variable {xb hb cb wxT whT bias}

/-- When the tile holds rows `r p` of the arrays, the laid-out weights are the transposes and the bias is the
    sum of the two, the tile's pre-activation is the arrays'. -/
theorem tilePre_eq (r : Fin 1024 → Fin 131072)
    (hx : ∀ p d, xb (ix2 p d) = x (ix2 (r p) d)) (hh : ∀ p j, hb (ix2 p j) = ht (ix2 (r p) j))
    (hwx : ∀ k d q, wxT (ix3 k d q) = wx (ix3 k q d)) (hwh : ∀ k j q, whT (ix3 k j q) = wh (ix3 k q j))
    (hb' : ∀ k q, bias (ix2 k q) = bx (ix2 k q) + bh (ix2 k q)) (k : Fin 4) (p : Fin 1024) (q : Fin 256) :
    tilePre xb hb wxT whT bias k p q = pre x ht wx wh bx bh k (r p) q := by
  unfold tilePre pre
  rw [hb' k q]
  congr 2
  · exact Finset.sum_congr rfl fun d _ => by rw [hx p d, hwx k d q]
  · exact Finset.sum_congr rfl fun j _ => by rw [hh p j, hwh k j q]

/-- So the tile's new cell state is the arrays' at the row the tile holds. -/
theorem tileCell_eq (r : Fin 1024 → Fin 131072)
    (hx : ∀ p d, xb (ix2 p d) = x (ix2 (r p) d)) (hh : ∀ p j, hb (ix2 p j) = ht (ix2 (r p) j))
    (hc : ∀ p q, cb (ix2 p q) = ct (ix2 (r p) q))
    (hwx : ∀ k d q, wxT (ix3 k d q) = wx (ix3 k q d)) (hwh : ∀ k j q, whT (ix3 k j q) = wh (ix3 k q j))
    (hb' : ∀ k q, bias (ix2 k q) = bx (ix2 k q) + bh (ix2 k q)) (p : Fin 1024) (q : Fin 256) :
    tileCell xb hb cb wxT whT bias p q = cellAt x ht ct wx wh bx bh (r p) q := by
  unfold tileCell cellAt tileGate gate
  rw [tilePre_eq x ht wx wh bx bh r hx hh hwx hwh hb', tilePre_eq x ht wx wh bx bh r hx hh hwx hwh hb',
    tilePre_eq x ht wx wh bx bh r hx hh hwx hwh hb', hc p q]

/-- And its new hidden state likewise. -/
theorem tileHid_eq (r : Fin 1024 → Fin 131072)
    (hx : ∀ p d, xb (ix2 p d) = x (ix2 (r p) d)) (hh : ∀ p j, hb (ix2 p j) = ht (ix2 (r p) j))
    (hc : ∀ p q, cb (ix2 p q) = ct (ix2 (r p) q))
    (hwx : ∀ k d q, wxT (ix3 k d q) = wx (ix3 k q d)) (hwh : ∀ k j q, whT (ix3 k j q) = wh (ix3 k q j))
    (hb' : ∀ k q, bias (ix2 k q) = bx (ix2 k q) + bh (ix2 k q)) (p : Fin 1024) (q : Fin 256) :
    tileHid xb hb cb wxT whT bias p q = hidAt x ht ct wx wh bx bh (r p) q := by
  unfold tileHid hidAt tileGate gate
  rw [tilePre_eq x ht wx wh bx bh r hx hh hwx hwh hb', tileCell_eq x ht ct wx wh bx bh r hx hh hc hwx hwh hb']

end tile

end Cert.Lstm

end
-- ==== Proof.TileValue.lean ====
/-
  What one tile of the kernel's body stores, entry by entry.

  The body holds a tile of 1024 rows of `x`, `ht` and `ct`, the two weight stacks laid out gate × input column ×
  output column, and the summed bias. For each gate it takes the gate's slab of each weight stack, multiplies
  the tile's rows of `x` and of `ht` into it, adds the two products and the gate's bias row, and applies the
  logistic. Read at row `p`, column `q` a matrix product into a zero accumulator is the plain sum over the
  contracted column of the products of the operands' entries, a change of float format is the identity, and the
  slab and bias-row loads read the stack at the gate's index. So the two stored tiles are `Cert.Lstm.tileCell`
  and `Cert.Lstm.tileHid` of the tile's six blocks.
-/
import proofs.«114235_j31361851195863_1_alg».proof.Proof.Gen.KernelIdeal.Frame
import proofs.«114235_j31361851195863_1_alg».proof.Proof.Cell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx
open scoped BigOperators

/-! ## The matrix product's operand indices -/

/-- The left operand is read in the output's row … -/
theorem lhs_row (i : S1024x256.Idx) (k : dot_S1024x256_S256x256_S1024x256_1_0_0_1_n_n.contr.Idx) :
    (dot_S1024x256_S256x256_S1024x256_1_0_0_1_n_n.lhsIdx i k 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- … at the contracted column; -/
theorem lhs_col (i : S1024x256.Idx) (k : dot_S1024x256_S256x256_S1024x256_1_0_0_1_n_n.contr.Idx) :
    (dot_S1024x256_S256x256_S1024x256_1_0_0_1_n_n.lhsIdx i k 1).val = (k ⟨0, by decide⟩).val :=
  dot_S1024x256_S256x256_S1024x256_1_0_0_1_n_n.lhsIdx_val_of_single rfl i k
/-- the right operand at the contracted row … -/
theorem rhs_row (i : S1024x256.Idx) (k : dot_S1024x256_S256x256_S1024x256_1_0_0_1_n_n.contr.Idx) :
    (dot_S1024x256_S256x256_S1024x256_1_0_0_1_n_n.rhsIdx i k 0).val = (k ⟨0, by decide⟩).val :=
  dot_S1024x256_S256x256_S1024x256_1_0_0_1_n_n.rhsIdx_val_of_single rfl i k
/-- … in the output's column. -/
theorem rhs_col (i : S1024x256.Idx) (k : dot_S1024x256_S256x256_S1024x256_1_0_0_1_n_n.contr.Idx) :
    (dot_S1024x256_S256x256_S1024x256_1_0_0_1_n_n.rhsIdx i k 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A product into the zero accumulator, read at row `p`, column `q`: the sum over the contracted column `d` of
    the left operand at `(p, d)` times the right at `(d, q)`. -/
theorem matmul_at (a : FVec Ideal S1024x256 .bf16) (w : FVec Ideal S256x256 .bf16) (p : Fin 1024) (q : Fin 256) :
    matmul dot_S1024x256_S256x256_S1024x256_1_0_0_1_n_n none a w (constant (F := Ideal) S1024x256 .f32 0x00000000#32) (ix2 p q)
      = ∑ d : Fin 256, a (ix2 p d) * w (ix2 d q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact lhs_row _ _
    | ⟨1, _⟩ => exact (lhs_col _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rhs_row _ _).trans hk
    | ⟨1, _⟩ => exact rhs_col _ _)
  rw [el, er]

/-! ## One gate -/

/-- A gate as the body spells it — the two products into zero accumulators added, a bias row laid along every row
    added, the logistic — read at row `p`, column `q`, for any right operands `W`, `U` and any bias row `B`. -/
theorem gate_at (a h : FVec Ideal S1024x256 .bf16) (W U : FVec Ideal S256x256 .bf16) (B : FVec Ideal S1x256 .f32)
    (p : Fin 1024) (q : Fin 256) :
    logistic (addf (addf
        (matmul dot_S1024x256_S256x256_S1024x256_1_0_0_1_n_n none a W (constant (F := Ideal) S1024x256 .f32 0x00000000#32))
        (matmul dot_S1024x256_S256x256_S1024x256_1_0_0_1_n_n none h U (constant (F := Ideal) S1024x256 .f32 0x00000000#32)))
        (broadcastTo S1024x256 B broadcasts_S1x256_S1024x256))
      (ix2 p q)
    = Ideal.logistic (((∑ d : Fin 256, a (ix2 p d) * W (ix2 d q)) + ∑ j : Fin 256, h (ix2 p j) * U (ix2 j q))
        + B (ix2 (0 : Fin 1) q)) := by
  have e : ∀ z : FVec Ideal S1024x256 .f32, logistic z (ix2 p q) = Ideal.logistic (z (ix2 p q)) := fun _ => rfl
  rw [e, addf_apply, addf_apply, matmul_at, matmul_at, broadcastTo_1b_ab_apply]

/-! ## The slab and bias-row loads -/

/-- The load of gate 0's slab of a weight stack reads the stack at gate 0. -/
theorem slab0_eq (X : Vec Ideal S4x256x256 .bf16) : View.ld X r0_1 = fun i => X (ix3 (0 : Fin 4) (i 1) (i 2)) :=
  funext fun i => congrArg X (funext fun a => Fin.ext (by
    have h0 : (i 0).val < 1 := (i 0).isLt
    match a with
    | ⟨0, _⟩ => show 0 + 1 * (i 0).val = 0; omega
    | ⟨1, _⟩ => show 0 + 1 * (i 1).val = (i 1).val; omega
    | ⟨2, _⟩ => show 0 + 1 * (i 2).val = (i 2).val; omega))
/-- The load of gate 1's slab of a weight stack reads the stack at gate 1. -/
theorem slab1_eq (X : Vec Ideal S4x256x256 .bf16) : View.ld X r0_3 = fun i => X (ix3 (1 : Fin 4) (i 1) (i 2)) :=
  funext fun i => congrArg X (funext fun a => Fin.ext (by
    have h0 : (i 0).val < 1 := (i 0).isLt
    match a with
    | ⟨0, _⟩ => show 1 + 1 * (i 0).val = 1; omega
    | ⟨1, _⟩ => show 0 + 1 * (i 1).val = (i 1).val; omega
    | ⟨2, _⟩ => show 0 + 1 * (i 2).val = (i 2).val; omega))
/-- The load of gate 2's slab of a weight stack reads the stack at gate 2. -/
theorem slab2_eq (X : Vec Ideal S4x256x256 .bf16) : View.ld X r0_5 = fun i => X (ix3 (2 : Fin 4) (i 1) (i 2)) :=
  funext fun i => congrArg X (funext fun a => Fin.ext (by
    have h0 : (i 0).val < 1 := (i 0).isLt
    match a with
    | ⟨0, _⟩ => show 2 + 1 * (i 0).val = 2; omega
    | ⟨1, _⟩ => show 0 + 1 * (i 1).val = (i 1).val; omega
    | ⟨2, _⟩ => show 0 + 1 * (i 2).val = (i 2).val; omega))
/-- The load of gate 3's slab of a weight stack reads the stack at gate 3. -/
theorem slab3_eq (X : Vec Ideal S4x256x256 .bf16) : View.ld X r0_7 = fun i => X (ix3 (3 : Fin 4) (i 1) (i 2)) :=
  funext fun i => congrArg X (funext fun a => Fin.ext (by
    have h0 : (i 0).val < 1 := (i 0).isLt
    match a with
    | ⟨0, _⟩ => show 3 + 1 * (i 0).val = 3; omega
    | ⟨1, _⟩ => show 0 + 1 * (i 1).val = (i 1).val; omega
    | ⟨2, _⟩ => show 0 + 1 * (i 2).val = (i 2).val; omega))

/-- The load of gate 0's bias row reads the bias at gate 0. -/
theorem brow0_eq (X : Vec Ideal S4x256 .f32) : View.ld X r0_2 = fun i => X (ix2 (0 : Fin 4) (i 1)) :=
  funext fun i => congrArg X (funext fun a => Fin.ext (by
    have h0 : (i 0).val < 1 := (i 0).isLt
    match a with
    | ⟨0, _⟩ => show 0 + 1 * (i 0).val = 0; omega
    | ⟨1, _⟩ => show 0 + 1 * (i 1).val = (i 1).val; omega))
/-- The load of gate 1's bias row reads the bias at gate 1. -/
theorem brow1_eq (X : Vec Ideal S4x256 .f32) : View.ld X r0_4 = fun i => X (ix2 (1 : Fin 4) (i 1)) :=
  funext fun i => congrArg X (funext fun a => Fin.ext (by
    have h0 : (i 0).val < 1 := (i 0).isLt
    match a with
    | ⟨0, _⟩ => show 1 + 1 * (i 0).val = 1; omega
    | ⟨1, _⟩ => show 0 + 1 * (i 1).val = (i 1).val; omega))
/-- The load of gate 2's bias row reads the bias at gate 2. -/
theorem brow2_eq (X : Vec Ideal S4x256 .f32) : View.ld X r0_6 = fun i => X (ix2 (2 : Fin 4) (i 1)) :=
  funext fun i => congrArg X (funext fun a => Fin.ext (by
    have h0 : (i 0).val < 1 := (i 0).isLt
    match a with
    | ⟨0, _⟩ => show 2 + 1 * (i 0).val = 2; omega
    | ⟨1, _⟩ => show 0 + 1 * (i 1).val = (i 1).val; omega))
/-- The load of gate 3's bias row reads the bias at gate 3. -/
theorem brow3_eq (X : Vec Ideal S4x256 .f32) : View.ld X r0_8 = fun i => X (ix2 (3 : Fin 4) (i 1)) :=
  funext fun i => congrArg X (funext fun a => Fin.ext (by
    have h0 : (i 0).val < 1 := (i 0).isLt
    match a with
    | ⟨0, _⟩ => show 3 + 1 * (i 0).val = 3; omega
    | ⟨1, _⟩ => show 0 + 1 * (i 1).val = (i 1).val; omega))

/-! ## The two stored tiles -/

theorem hz2 : (![0, 0] : Fin 2 → Nat) = fun _ => 0 := funext fun a => by fin_cases a <;> rfl

/-- The value stored into the cell-state result, read at row `p`, column `q`: forget gate times the old state
    plus input gate times candidate gate, each gate over its own slabs and bias row. -/
theorem cellPay_at (x0 x1 x2 : Vec Ideal S1024x256 .f32) (x3 x4 : Vec Ideal S4x256x256 .bf16) (x5 : Vec Ideal S4x256 .f32)
    (p : Fin 1024) (q : Fin 256) :
    k0_pay1 (k0_pay3 x0) (k0_pay4 x1) x2 (k0_pay5 x0 x1 (View.ld x3 r0_1) (View.ld x4 r0_1) (View.ld x5 r0_2))
        (k0_pay6 x0 x1 (View.ld x3 r0_3) (View.ld x4 r0_3) (View.ld x5 r0_4)) (View.ld x3 r0_7) (View.ld x4 r0_7) (View.ld x5 r0_8) (ix2 p q)
      = Cert.Lstm.tileCell x0 x1 x2 x3 x4 x5 p q := by
  unfold k0_pay1 k0_pay5 k0_pay6 k0_pay3 k0_pay4
  dsimp only
  rw [addf_apply, mulf_apply, mulf_apply, gate_at, gate_at, gate_at]
  simp only [shapeCast_shapeCast, shapeCast_1ab_ab_apply, truncf_apply]
  rw [slab0_eq, slab1_eq, slab3_eq, slab0_eq, slab1_eq, slab3_eq, brow0_eq, brow1_eq, brow3_eq]
  rfl

/-- The tile stored into the cell-state result is `tileCell` of the six blocks. -/
theorem cellTile_at (x0 x1 x2 : Vec Ideal S1024x256 .f32) (x3 x4 : Vec Ideal S4x256x256 .bf16) (x5 : Vec Ideal S4x256 .f32)
    (p : Fin 1024) (q : Fin 256) :
    out0_7 x0 x1 x2 x3 x4 x5 (ix2 p q) = Cert.Lstm.tileCell x0 x1 x2 x3 x4 x5 p q := by
  unfold out0_7
  rw [View.canon_unit_zero hz2]
  simp only [View.ld_unit_zero (S := S1024x256) hz2]
  exact cellPay_at x0 x1 x2 x3 x4 x5 p q

/-- The tile stored into the hidden-state result is `tileHid` of the six blocks: the output gate times the
    hyperbolic tangent of the cell-state value. -/
theorem hidTile_at (x0 x1 x2 : Vec Ideal S1024x256 .f32) (x3 x4 : Vec Ideal S4x256x256 .bf16) (x5 : Vec Ideal S4x256 .f32)
    (p : Fin 1024) (q : Fin 256) :
    out0_6 x0 x1 x2 x3 x4 x5 (ix2 p q) = Cert.Lstm.tileHid x0 x1 x2 x3 x4 x5 p q := by
  unfold out0_6
  rw [View.canon_unit_zero hz2]
  simp only [View.ld_unit_zero (S := S1024x256) hz2]
  unfold k0_pay2
  have e : ∀ z : FVec Ideal S1024x256 .f32, tanh z (ix2 p q) = Ideal.tanh (z (ix2 p q)) := fun _ => rfl
  rw [mulf_apply, e, gate_at, cellPay_at]
  unfold k0_pay3 k0_pay4
  simp only [shapeCast_shapeCast, shapeCast_1ab_ab_apply, truncf_apply]
  rw [slab2_eq, slab2_eq, brow2_eq]
  rfl

end Cert.KernelIdeal.TileValue

end
-- ==== Proof.ArrayValue.lean ====
/-
  From tiles to arrays: what the kernel's two result arrays hold after the run.

  The grid has 128 points; point `t` stages rows `1024·t … 1024·t + 1023` of `x`, `ht` and `ct`, the whole of
  the two re-laid weight stacks and of the summed bias, and writes back rows `1024·t …` of both results. The
  weight stacks the kernel reads were made before the launch by transposing each gate's matrix (and changing the
  float format, which is the identity on the extended reals), and the bias by adding the two bias arrays. So
  what point `t` stores is block `t` of ONE function of the seven arguments, `Cert.Lstm.hidArr` and
  `Cert.Lstm.cellArr`; the 128 blocks tile each result, which therefore ends holding that function.
-/
import proofs.«114235_j31361851195863_1_alg».proof.Proof.Gen.KernelIdeal.Value
import proofs.«114235_j31361851195863_1_alg».proof.Proof.TileValue
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.ArrayValue

open Cert.KernelIdeal Cert.KernelIdeal.Gen Cert.KernelIdeal.Value Cert.KernelIdeal.TileValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The new hidden state of the seven argument arrays. -/
def hidG (c : Dev nD) : Buf (Elt Ideal) ((c : Thread nD τ).loc main_v5_0) :=
  Cert.Lstm.hidArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))

/-- The new cell state of the seven argument arrays. -/
def cellG (c : Dev nD) : Buf (Elt Ideal) ((c : Thread nD τ).loc main_v5_1) :=
  Cert.Lstm.cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))

/-! ## The arrays the host made before the launch -/

/-- The first weight stack as the kernel finds it: each gate's matrix of `wx` transposed. -/
theorem wxT_eq (c : Dev nD) : (V m c main_v1 : S4x256x256.Idx → EReal)
    = truncf (F := Ideal) .bf16 (transpose S4x256x256 [0, 2, 1] (m ((c : Thread nD τ).loc main_arg3)) transposes_S4x256x256_S4x256x256_0_2_1) bitsLt_bf16_f32 := by
  dsimp only [Gen.V, Gen.hostOps0]; after_results

/-- The second likewise, of `wh`. -/
theorem whT_eq (c : Dev nD) : (V m c main_v3 : S4x256x256.Idx → EReal)
    = truncf (F := Ideal) .bf16 (transpose S4x256x256 [0, 2, 1] (m ((c : Thread nD τ).loc main_arg5)) transposes_S4x256x256_S4x256x256_0_2_1) bitsLt_bf16_f32 := by
  dsimp only [Gen.V, Gen.hostOps0]; after_results

/-- The bias as the kernel finds it: the two bias arrays added. -/
theorem bias_eq (c : Dev nD) : (V m c main_v4 : S4x256.Idx → EReal)
    = addf (F := Ideal) (s := S4x256) (φ := .f32) (m ((c : Thread nD τ).loc main_arg4)) (m ((c : Thread nD τ).loc main_arg6)) := by
  dsimp only [Gen.V, Gen.hostOps0]; after_results

/-! ## Where each window's block sits, decided over the 128 points -/

theorem rows_idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem rows_idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem rows_idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem rows_idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem rows_idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem stack_idx3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)
theorem stack_idx4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)
theorem bias_idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Two bias arrays added, at gate `k`, column `q`. -/
def biasAt (bx bh : Cert.Lstm.Bias.Idx → EReal) (k : Fin 4) (q : Fin 256) : EReal := bx (ix2 k q) + bh (ix2 k q)

/-- The array row that row `p` of point `t`'s tile is. -/
def rowOf (t : Fin cfg0.N) (p : Fin 1024) : Fin 131072 :=
  ⟨t.val * 1024 + p.val, by have h : t.val < 128 := lt_of_lt_of_eq t.isLt N_0; omega⟩

/-! ## The six input blocks at a point -/

/-- Point `t`'s block of `x` is rows `1024·t …` of the argument. -/
theorem xTile_at (c : Dev nD) (t : Fin cfg0.N) (p : Fin 1024) (d : Fin 256) :
    (iblk m c 0 t : Vec Ideal S1024x256 .f32) (ix2 p d) = m ((c : Thread nD τ).loc main_arg0) (ix2 (rowOf t p) d) := by
  obtain ⟨e0, e1⟩ := rows_idx0 t
  unfold iblk
  rw [View.read_apply]
  show V m c main_arg0 _ = _
  rw [V_main_arg0]
  congr 1
  funext a; apply Fin.ext
  match a with
  | ⟨0, _⟩ => show win0_0.index t (0 : Fin 2) * 1024 + 1 * p.val = t.val * 1024 + p.val; rw [e0]; omega
  | ⟨1, _⟩ => show win0_0.index t (1 : Fin 2) * 256 + 1 * d.val = d.val; rw [e1]; omega

/-- Of `ht` likewise. -/
theorem hTile_at (c : Dev nD) (t : Fin cfg0.N) (p : Fin 1024) (d : Fin 256) :
    (iblk m c 1 t : Vec Ideal S1024x256 .f32) (ix2 p d) = m ((c : Thread nD τ).loc main_arg1) (ix2 (rowOf t p) d) := by
  obtain ⟨e0, e1⟩ := rows_idx1 t
  unfold iblk
  rw [View.read_apply]
  show V m c main_arg1 _ = _
  rw [V_main_arg1]
  congr 1
  funext a; apply Fin.ext
  match a with
  | ⟨0, _⟩ => show win0_1.index t (0 : Fin 2) * 1024 + 1 * p.val = t.val * 1024 + p.val; rw [e0]; omega
  | ⟨1, _⟩ => show win0_1.index t (1 : Fin 2) * 256 + 1 * d.val = d.val; rw [e1]; omega

/-- Of `ct` likewise. -/
theorem cTile_at (c : Dev nD) (t : Fin cfg0.N) (p : Fin 1024) (d : Fin 256) :
    (iblk m c 2 t : Vec Ideal S1024x256 .f32) (ix2 p d) = m ((c : Thread nD τ).loc main_arg2) (ix2 (rowOf t p) d) := by
  obtain ⟨e0, e1⟩ := rows_idx2 t
  unfold iblk
  rw [View.read_apply]
  show V m c main_arg2 _ = _
  rw [V_main_arg2]
  congr 1
  funext a; apply Fin.ext
  match a with
  | ⟨0, _⟩ => show win0_2.index t (0 : Fin 2) * 1024 + 1 * p.val = t.val * 1024 + p.val; rw [e0]; omega
  | ⟨1, _⟩ => show win0_2.index t (1 : Fin 2) * 256 + 1 * d.val = d.val; rw [e1]; omega

/-- Every point's block of the first weight stack is the whole stack: `wx` with each gate's matrix transposed. -/
theorem wxTile_at (c : Dev nD) (t : Fin cfg0.N) (k : Fin 4) (d q : Fin 256) :
    (iblk m c 3 t : Vec Ideal S4x256x256 .bf16) (ix3 k d q) = m ((c : Thread nD τ).loc main_arg3) (ix3 k q d) := by
  obtain ⟨e0, e1, e2⟩ := stack_idx3 t
  have hi : ((cfg0.win 3).blk t).view.emb (ix3 k d q) = ix3 k d q := funext fun a => Fin.ext (by
    match a with
    | ⟨0, _⟩ => show win0_3.index t (0 : Fin 3) * 4 + 1 * k.val = k.val; rw [e0]; omega
    | ⟨1, _⟩ => show win0_3.index t (1 : Fin 3) * 256 + 1 * d.val = d.val; rw [e1]; omega
    | ⟨2, _⟩ => show win0_3.index t (2 : Fin 3) * 256 + 1 * q.val = q.val; rw [e2]; omega)
  unfold iblk
  rw [View.read_apply]
  show V m c main_v1 (((cfg0.win 3).blk t).view.emb (ix3 k d q)) = _
  rw [hi, wxT_eq]
  exact transpose_ix3_021_apply _ _ k d q

/-- Of the second likewise, from `wh`. -/
theorem whTile_at (c : Dev nD) (t : Fin cfg0.N) (k : Fin 4) (d q : Fin 256) :
    (iblk m c 4 t : Vec Ideal S4x256x256 .bf16) (ix3 k d q) = m ((c : Thread nD τ).loc main_arg5) (ix3 k q d) := by
  obtain ⟨e0, e1, e2⟩ := stack_idx4 t
  have hi : ((cfg0.win 4).blk t).view.emb (ix3 k d q) = ix3 k d q := funext fun a => Fin.ext (by
    match a with
    | ⟨0, _⟩ => show win0_4.index t (0 : Fin 3) * 4 + 1 * k.val = k.val; rw [e0]; omega
    | ⟨1, _⟩ => show win0_4.index t (1 : Fin 3) * 256 + 1 * d.val = d.val; rw [e1]; omega
    | ⟨2, _⟩ => show win0_4.index t (2 : Fin 3) * 256 + 1 * q.val = q.val; rw [e2]; omega)
  unfold iblk
  rw [View.read_apply]
  show V m c main_v3 (((cfg0.win 4).blk t).view.emb (ix3 k d q)) = _
  rw [hi, whT_eq]
  exact transpose_ix3_021_apply _ _ k d q

/-- Every point's block of the bias is the whole of it: the two bias arrays added. -/
theorem biasTile_at (c : Dev nD) (t : Fin cfg0.N) (k : Fin 4) (q : Fin 256) :
    (iblk m c 5 t : Vec Ideal S4x256 .f32) (ix2 k q) = biasAt (m ((c : Thread nD τ).loc main_arg4)) (m ((c : Thread nD τ).loc main_arg6)) k q := by
  obtain ⟨e0, e1⟩ := bias_idx5 t
  have hi : ((cfg0.win 5).blk t).view.emb (ix2 k q) = ix2 k q := funext fun a => Fin.ext (by
    match a with
    | ⟨0, _⟩ => show win0_5.index t (0 : Fin 2) * 4 + 1 * k.val = k.val; rw [e0]; omega
    | ⟨1, _⟩ => show win0_5.index t (1 : Fin 2) * 256 + 1 * q.val = q.val; rw [e1]; omega)
  unfold iblk
  rw [View.read_apply]
  show V m c main_v4 (((cfg0.win 5).blk t).view.emb (ix2 k q)) = _
  rw [hi, bias_eq]
  rfl

/-! ## The hidden-state result -/

/-- An index of the array is in point `t`'s block iff each coordinate is in the block's range on its axis. -/
theorem mem_blk6 (t : Fin cfg0.N) (i : S131072x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v5_0).slice (win0_6.rect t)).set ↔ _
  rw [View.set_slice_whole, Rect.mem_set_unit]
  exact Iff.rfl

/-- Every row of the array lies in the block of the point numbered by the row's quotient by 1024. -/
theorem cover6 (i : S131072x256.Idx) : ∃ t : Fin cfg0.N, (cfg0.win 6).flush t = true ∧ i ∈ ((cfg0.win 6).blk t).view.set := by
  have h0 : (i 0).val < 131072 := (i 0).isLt
  have h1 : (i 1).val < 256 := (i 1).isLt
  have hN : cfg0.N = 128 := N_0
  obtain ⟨t, ht⟩ : ∃ t : Fin cfg0.N, t.val = (i 0).val / 1024 := ⟨⟨(i 0).val / 1024, by rw [hN]; omega⟩, rfl⟩
  obtain ⟨e0, e1⟩ := rows_idx6 t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; rw [e0, ht]; omega
  | ⟨1, _⟩ => show win0_6.index t (1 : Fin 2) * 256 ≤ (i 1).val ∧ (i 1).val < win0_6.index t (1 : Fin 2) * 256 + 256; rw [e1]; omega

/-- What point `t` writes back is block `t` of the hidden-state array: the stored tile is the tile form of the cell
    (`hidTile_at`), and the tile's six blocks are the rows and the re-laid weights it holds (`tileHid_eq`). -/
theorem flushed6_eq (c : Dev nD) (t : Fin cfg0.N) :
    (dats m 0 c).flushed 6 t = ((cfg0.win 6).blk t).view.read (Elt Ideal) (hidG m c) := by
  obtain ⟨e0, e1⟩ := rows_idx6 t
  rw [Value.flushed6]
  funext y
  obtain ⟨p, q, rfl⟩ : ∃ (p : Fin 1024) (q : Fin 256), y = ix2 p q := ⟨y 0, y 1, eq_ix2 y⟩
  rw [View.read_apply]
  show out0_6 (iblk m c 0 t) (iblk m c 1 t) (iblk m c 2 t) (iblk m c 3 t) (iblk m c 4 t) (iblk m c 5 t) (ix2 p q)
    = hidG m c (((cfg0.win 6).blk t).view.emb (ix2 p q))
  have hi : ((cfg0.win 6).blk t).view.emb (ix2 p q) = ix2 (rowOf t p) q := funext fun a => Fin.ext (by
    match a with
    | ⟨0, _⟩ => show win0_6.index t (0 : Fin 2) * 1024 + 1 * p.val = t.val * 1024 + p.val; rw [e0]; omega
    | ⟨1, _⟩ => show win0_6.index t (1 : Fin 2) * 256 + 1 * q.val = q.val; rw [e1]; omega)
  rw [hi]
  refine (hidTile_at (iblk m c 0 t) (iblk m c 1 t) (iblk m c 2 t) (iblk m c 3 t) (iblk m c 4 t) (iblk m c 5 t) p q).trans ?_
  exact Cert.Lstm.tileHid_eq (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (rowOf t)
    (xTile_at m c t) (hTile_at m c t) (cTile_at m c t) (wxTile_at m c t) (whTile_at m c t) (biasTile_at m c t) p q

/-- So after the run the array holds the hidden-state of the seven arguments. -/
theorem final6 (c : Dev nD) : (dats m 0 c).arrAt 6 cfg0.N = hidG m c :=
  (dats m 0 c).arrAt_eq_of_cover 6 (hidG m c) (fun t _ => flushed6_eq m c t) cover6

/-! ## The cell-state result -/

/-- An index of the array is in point `t`'s block iff each coordinate is in the block's range on its axis. -/
theorem mem_blk7 (t : Fin cfg0.N) (i : S131072x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v5_1).slice (win0_7.rect t)).set ↔ _
  rw [View.set_slice_whole, Rect.mem_set_unit]
  exact Iff.rfl

/-- Every row of the array lies in the block of the point numbered by the row's quotient by 1024. -/
theorem cover7 (i : S131072x256.Idx) : ∃ t : Fin cfg0.N, (cfg0.win 7).flush t = true ∧ i ∈ ((cfg0.win 7).blk t).view.set := by
  have h0 : (i 0).val < 131072 := (i 0).isLt
  have h1 : (i 1).val < 256 := (i 1).isLt
  have hN : cfg0.N = 128 := N_0
  obtain ⟨t, ht⟩ : ∃ t : Fin cfg0.N, t.val = (i 0).val / 1024 := ⟨⟨(i 0).val / 1024, by rw [hN]; omega⟩, rfl⟩
  obtain ⟨e0, e1⟩ := rows_idx7 t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; rw [e0, ht]; omega
  | ⟨1, _⟩ => show win0_7.index t (1 : Fin 2) * 256 ≤ (i 1).val ∧ (i 1).val < win0_7.index t (1 : Fin 2) * 256 + 256; rw [e1]; omega

/-- What point `t` writes back is block `t` of the cell-state array: the stored tile is the tile form of the cell
    (`cellTile_at`), and the tile's six blocks are the rows and the re-laid weights it holds (`tileCell_eq`). -/
theorem flushed7_eq (c : Dev nD) (t : Fin cfg0.N) :
    (dats m 0 c).flushed 7 t = ((cfg0.win 7).blk t).view.read (Elt Ideal) (cellG m c) := by
  obtain ⟨e0, e1⟩ := rows_idx7 t
  rw [Value.flushed7]
  funext y
  obtain ⟨p, q, rfl⟩ : ∃ (p : Fin 1024) (q : Fin 256), y = ix2 p q := ⟨y 0, y 1, eq_ix2 y⟩
  rw [View.read_apply]
  show out0_7 (iblk m c 0 t) (iblk m c 1 t) (iblk m c 2 t) (iblk m c 3 t) (iblk m c 4 t) (iblk m c 5 t) (ix2 p q)
    = cellG m c (((cfg0.win 7).blk t).view.emb (ix2 p q))
  have hi : ((cfg0.win 7).blk t).view.emb (ix2 p q) = ix2 (rowOf t p) q := funext fun a => Fin.ext (by
    match a with
    | ⟨0, _⟩ => show win0_7.index t (0 : Fin 2) * 1024 + 1 * p.val = t.val * 1024 + p.val; rw [e0]; omega
    | ⟨1, _⟩ => show win0_7.index t (1 : Fin 2) * 256 + 1 * q.val = q.val; rw [e1]; omega)
  rw [hi]
  refine (cellTile_at (iblk m c 0 t) (iblk m c 1 t) (iblk m c 2 t) (iblk m c 3 t) (iblk m c 4 t) (iblk m c 5 t) p q).trans ?_
  exact Cert.Lstm.tileCell_eq (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (rowOf t)
    (xTile_at m c t) (hTile_at m c t) (cTile_at m c t) (wxTile_at m c t) (whTile_at m c t) (biasTile_at m c t) p q

/-- So after the run the array holds the cell-state of the seven arguments. -/
theorem final7 (c : Dev nD) : (dats m 0 c).arrAt 7 cfg0.N = cellG m c :=
  (dats m 0 c).arrAt_eq_of_cover 7 (cellG m c) (fun t _ => flushed7_eq m c t) cover7

/-! ## The run, read -/

/-- The kernel's run re-posted: the two results at the hidden and cell state of the arguments, the arguments unchanged. -/
theorem run : θ_run defs (onTc (τ := τ) (main (F := Ideal))) ⟨m, fun _ => 0, ρ⟩ fun r => ∀ c : Dev nD,
      r.2.mem ((c : Thread nD τ).loc main_v5_0) = hidG m c
      ∧ r.2.mem ((c : Thread nD τ).loc main_v5_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.ArrayValue

end
-- ==== Proof.RefValue.lean ====
/-
  The reference's two results are the LSTM cell's arrays.

  The reference multiplies each weight stack into the batch rows (gate × output column × batch row), transposes
  the product to gate × batch row × output column, adds each bias along the rows, adds the two halves, and takes
  `1 / (1 + exp (−z))` of the sum; it then slices the four gates apart and combines them. Read entry by entry
  through the generated stage lemmas, the stacked gates at `(k, b, h)` are `Cert.Lstm.gate` — the reference's
  bracketing of the pre-activation against the specification's by `Cert.Lstm.pre_regrouped`, its spelt-out
  logistic by `Cert.Lstm.logistic_spelt` — and the two results are `Cert.Lstm.cellArr` and `Cert.Lstm.hidArr`.
-/
import proofs.«114235_j31361851195863_1_alg».proof.Proof.Gen.ReferenceIdeal.Read
import proofs.«114235_j31361851195863_1_alg».proof.Proof.Cell
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 x1 x2 : (⟨S131072x256, .f32⟩ : BufTy).Contents (Elt Ideal)) (x3 : (⟨S4x256x256, .f32⟩ : BufTy).Contents (Elt Ideal)) (x4 : (⟨S4x256, .f32⟩ : BufTy).Contents (Elt Ideal))
  (x5 : (⟨S4x256x256, .f32⟩ : BufTy).Contents (Elt Ideal)) (x6 : (⟨S4x256, .f32⟩ : BufTy).Contents (Elt Ideal))

/-! ## Where the stages read their operands -/

/-- The first product at `(k, b, h)` (after its transposition) reads `wx` at `(k, h, d)` … -/
theorem wx_idx (k : Fin 4) (b : Fin 131072) (h d : Fin 256) : lidx_main_v0 (idx_main_v1 (ix3 k b h)) d = ix3 k h d :=
  funext fun a => Fin.ext (by match a with | ⟨0, _⟩ => rfl | ⟨1, _⟩ => rfl | ⟨2, _⟩ => rfl)
/-- … and `x` at `(b, d)`; -/
theorem x_idx (k : Fin 4) (b : Fin 131072) (h d : Fin 256) : ridx_main_v0 (idx_main_v1 (ix3 k b h)) d = ix2 b d :=
  funext fun a => Fin.ext (by match a with | ⟨0, _⟩ => rfl | ⟨1, _⟩ => rfl)
/-- the second reads `wh` at `(k, h, j)` … -/
theorem wh_idx (k : Fin 4) (b : Fin 131072) (h j : Fin 256) : lidx_main_v5 (idx_main_v6 (ix3 k b h)) j = ix3 k h j :=
  funext fun a => Fin.ext (by match a with | ⟨0, _⟩ => rfl | ⟨1, _⟩ => rfl | ⟨2, _⟩ => rfl)
/-- … and `ht` at `(b, j)`. -/
theorem ht_idx (k : Fin 4) (b : Fin 131072) (h j : Fin 256) : ridx_main_v5 (idx_main_v6 (ix3 k b h)) j = ix2 b j :=
  funext fun a => Fin.ext (by match a with | ⟨0, _⟩ => rfl | ⟨1, _⟩ => rfl)
/-- The first bias laid along the rows reads `bx` at `(k, h)`, -/
theorem bx_idx (k : Fin 4) (b : Fin 131072) (h : Fin 256) : idx_main_v2 (idx_main_v3 (ix3 k b h)) = ix2 k h :=
  funext fun a => Fin.ext (by match a with | ⟨0, _⟩ => rfl | ⟨1, _⟩ => rfl)
/-- the second `bh` there. -/
theorem bh_idx (k : Fin 4) (b : Fin 131072) (h : Fin 256) : idx_main_v7 (idx_main_v8 (ix3 k b h)) = ix2 k h :=
  funext fun a => Fin.ext (by match a with | ⟨0, _⟩ => rfl | ⟨1, _⟩ => rfl)

/-- Gate 0's slice of the stacked gates, flattened back to batch × hidden, is read at gate 0. -/
theorem gidx0 (b : Fin 131072) (h : Fin 256) : idx_main_v17 (idx_main_v18 (ix2 b h)) = ix3 (0 : Fin 4) b h :=
  funext fun a => Fin.ext (by
    have hb : b.val < 131072 := b.isLt
    have hh : h.val < 256 := h.isLt
    match a with
    | ⟨0, _⟩ => rfl
    | ⟨1, _⟩ => show (b.val * 256 + h.val) / 256 % 131072 = b.val; omega
    | ⟨2, _⟩ => show (b.val * 256 + h.val) % 256 = h.val; omega)
/-- Gate 1's slice of the stacked gates, flattened back to batch × hidden, is read at gate 1. -/
theorem gidx1 (b : Fin 131072) (h : Fin 256) : idx_main_v19 (idx_main_v20 (ix2 b h)) = ix3 (1 : Fin 4) b h :=
  funext fun a => Fin.ext (by
    have hb : b.val < 131072 := b.isLt
    have hh : h.val < 256 := h.isLt
    match a with
    | ⟨0, _⟩ => rfl
    | ⟨1, _⟩ => show (b.val * 256 + h.val) / 256 % 131072 = b.val; omega
    | ⟨2, _⟩ => show (b.val * 256 + h.val) % 256 = h.val; omega)
/-- Gate 2's slice of the stacked gates, flattened back to batch × hidden, is read at gate 2. -/
theorem gidx2 (b : Fin 131072) (h : Fin 256) : idx_main_v21 (idx_main_v22 (ix2 b h)) = ix3 (2 : Fin 4) b h :=
  funext fun a => Fin.ext (by
    have hb : b.val < 131072 := b.isLt
    have hh : h.val < 256 := h.isLt
    match a with
    | ⟨0, _⟩ => rfl
    | ⟨1, _⟩ => show (b.val * 256 + h.val) / 256 % 131072 = b.val; omega
    | ⟨2, _⟩ => show (b.val * 256 + h.val) % 256 = h.val; omega)
/-- Gate 3's slice of the stacked gates, flattened back to batch × hidden, is read at gate 3. -/
theorem gidx3 (b : Fin 131072) (h : Fin 256) : idx_main_v23 (idx_main_v24 (ix2 b h)) = ix3 (3 : Fin 4) b h :=
  funext fun a => Fin.ext (by
    have hb : b.val < 131072 := b.isLt
    have hh : h.val < 256 := h.isLt
    match a with
    | ⟨0, _⟩ => rfl
    | ⟨1, _⟩ => show (b.val * 256 + h.val) / 256 % 131072 = b.val; omega
    | ⟨2, _⟩ => show (b.val * 256 + h.val) % 256 = h.val; omega)

/-! ## The stacked gates -/

/-- The stacked gates at `(k, b, h)`: the logistic of gate `k`'s pre-activation. -/
theorem gates_at (k : Fin 4) (b : Fin 131072) (h : Fin 256) :
    val_main_v16 (F := Ideal) x0 x1 x3 x4 x5 x6 (ix3 k b h) = Cert.Lstm.gate x0 x1 x3 x5 x4 x6 k b h := by
  rw [val_main_v16_apply, val_main_v15_apply, val_main_cst_0_apply, val_main_v14_apply, val_main_v13_apply, val_main_cst_apply,
    val_main_v12_apply, val_main_v11_apply, val_main_v10_apply, val_main_v4_apply, val_main_v9_apply,
    val_main_v1_apply, val_main_v0_apply, val_main_v3_apply, val_main_v2_apply,
    val_main_v6_apply, val_main_v5_apply, val_main_v8_apply, val_main_v7_apply]
  simp only [wx_idx, x_idx, wh_idx, ht_idx, bx_idx, bh_idx, Ideal.hostDivf_def, Ideal.addf_def, Ideal.hostUnary_exp_def,
    Ideal.hostNegf_def, Ideal.negf_def, Ideal.ofBits_def]
  rw [Cert.Lstm.logistic_spelt, Cert.Lstm.pre_regrouped]
  rfl

/-! ## The two results -/

/-- The reference's second result is the new cell state. -/
theorem cell_eq : val_main_v27 (F := Ideal) x0 x1 x2 x3 x4 x5 x6 = Cert.Lstm.cellArr x0 x1 x2 x3 x5 x4 x6 := by
  funext i
  obtain ⟨b, h, rfl⟩ : ∃ (b : Fin 131072) (h : Fin 256), i = ix2 b h := ⟨i 0, i 1, eq_ix2 i⟩
  rw [val_main_v27_apply, val_main_v25_apply, val_main_v26_apply, val_main_v20_apply, val_main_v19_apply,
    val_main_v18_apply, val_main_v17_apply, val_main_v24_apply, val_main_v23_apply, gidx0, gidx1, gidx3,
    gates_at, gates_at, gates_at]
  rfl

/-- The reference's first result is the new hidden state. -/
theorem hid_eq : val_main_v29 (F := Ideal) x0 x1 x2 x3 x4 x5 x6 = Cert.Lstm.hidArr x0 x1 x2 x3 x5 x4 x6 := by
  funext i
  obtain ⟨b, h, rfl⟩ : ∃ (b : Fin 131072) (h : Fin 256), i = ix2 b h := ⟨i 0, i 1, eq_ix2 i⟩
  rw [val_main_v29_apply, val_main_v28_apply, val_main_v22_apply, val_main_v21_apply, gidx2, gates_at, cell_eq]
  rfl

end Cert.ReferenceIdeal.RefValue

end
-- ==== Proof.lean ====
/-
  The kernel and its reference compute the same LSTM cell over the extended reals.

  Both programs take batch rows `x`, `ht`, `ct` (131072 × 256), four stacked gate matrices `wx`, `wh`
  (4 × 256 × 256) and their biases `bx`, `bh` (4 × 256). Gate `k` at row `b`, column `h` is the logistic of
      ∑_d x[b,d]·wx[k,h,d] + ∑_j ht[b,j]·wh[k,h,j] + bx[k,h] + bh[k,h],
  the new cell state is `f·ct + i·g` and the new hidden state `o·tanh(cell)` (Proof/Cell.lean).

  The kernel transposes each gate's matrix and adds the two biases before its launch, then, tile by tile of 1024
  rows, forms each gate from two matrix products into zero accumulators and the summed bias (Proof/TileValue.lean)
  and writes the two result tiles back; the 128 tiles cover both results (Proof/ArrayValue.lean). The reference
  forms every gate at once, each product with its own bias, with the logistic spelt as `1 / (1 + exp (−z))`
  (Proof/RefValue.lean). The two differ by the order of the factors in each product, by the bracketing of a
  four-term sum, and by the spelling of the logistic: all equal on the extended reals without any finiteness, so
  the precondition is never opened. A change of float format is the identity there, so the kernel's narrowing of
  its matrix operands changes nothing. The idealization rewrote no operation, so there is nothing to preserve.
-/
import proofs.«114235_j31361851195863_1_alg».proof.Defs
import proofs.«114235_j31361851195863_1_alg».proof.Proof.Gen.Kernel
import proofs.«114235_j31361851195863_1_alg».proof.Proof.Gen.Kernel.Frame
import proofs.«114235_j31361851195863_1_alg».proof.Proof.Gen.KernelIdeal
import proofs.«114235_j31361851195863_1_alg».proof.Proof.Gen.KernelIdeal.Frame
import proofs.«114235_j31361851195863_1_alg».proof.Proof.Gen.KernelIdeal.Value
import proofs.«114235_j31361851195863_1_alg».proof.Proof.Gen.ReferenceIdeal
import proofs.«114235_j31361851195863_1_alg».proof.Proof.Gen.ReferenceIdeal.Run
import proofs.«114235_j31361851195863_1_alg».proof.Proof.Gen.ReferenceIdeal.Read
import proofs.«114235_j31361851195863_1_alg».proof.Proof.Gen.Pre_finite_inputs
import proofs.«114235_j31361851195863_1_alg».proof.Proof.ArrayValue
import proofs.«114235_j31361851195863_1_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the new hidden state and the new cell state of their (agreeing) arguments. -/
theorem algebraic : Cert.algebraic_KernelIdeal_ReferenceIdeal := by
  intro m ρ m' ρ' _ hagree
  refine ⟨fun c => Cert.KernelIdeal.ArrayValue.hidG m c, fun c => Cert.KernelIdeal.ArrayValue.cellG m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v29_eq, Cert.ReferenceIdeal.RefValue.hid_eq, a0, a1, a2, a3, a4, a5, a6]
    rfl
  · obtain ⟨a0, a1, a2, a3, a4, a5, a6⟩ := hagree c
    rw [Cert.ReferenceIdeal.Read.val_main_v27_eq, Cert.ReferenceIdeal.RefValue.cell_eq, a0, a1, a2, a3, a4, a5, a6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
